-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S32768x4096 .f32) (main_arg1 : FVec F S64x4096 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S32768x4096 : Shape := ⟨2, ![32768, 4096]⟩
abbrev S64x4096 : Shape := ⟨2, ![64, 4096]⟩
abbrev S64x32768 : Shape := ⟨2, ![64, 32768]⟩
abbrev S1024x4096 : Shape := ⟨2, ![1024, 4096]⟩
abbrev S64x1024 : Shape := ⟨2, ![64, 1024]⟩
abbrev S32768x64 : Shape := ⟨2, ![32768, 64]⟩

abbrev nBuf : Space → Nat
  | .hbm => 4
  | .vmem => 5
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64x32768, .f32⟩
  | .hbm, ⟨3, _⟩ => ⟨S32768x64, .f32⟩
  | .local _ .vmem, ⟨0, _⟩ => ⟨S1024x4096, .f32⟩
  | .local _ .vmem, ⟨1, _⟩ => ⟨S1024x4096, .f32⟩
  | .local _ .vmem, ⟨2, _⟩ => ⟨S64x4096, .f32⟩
  | .local _ .vmem, ⟨3, _⟩ => ⟨S64x1024, .f32⟩
  | .local _ .vmem, ⟨4, _⟩ => ⟨S64x1024, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S64x4096_S64x4096_0_0 : ∀ a, (![0, 0] : Fin 2 → Nat) a + S64x4096.size a ≤ S64x4096.size a
  h_S64x4096 : 0 < S64x4096.numel
  inb_S1024x4096_S1024x4096_0_0 : ∀ a, (![0, 0] : Fin 2 → Nat) a + S1024x4096.size a ≤ S1024x4096.size a
  h_S1024x4096 : 0 < S1024x4096.numel
  inb_S64x1024_S64x1024_0_0 : ∀ a, (![0, 0] : Fin 2 → Nat) a + S64x1024.size a ≤ S64x1024.size a
  h_S64x1024 : 0 < S64x1024.numel
  transposes_S64x32768_S32768x64_1_0 : S64x32768.Transposes [1, 0] S32768x64
  dot_S64x4096_S1024x4096_S64x1024_1_1_0_0_n_n_wf : DotDims.WF S64x4096 S1024x4096 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S32768x4096.size a
  hwx0_0 : ∀ i : grid0.Coords, EltTy.bits .f32 = 32 ∨ (Rect.block (s := S32768x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x32768.size a
  hwx0_2 : ∀ i : grid0.Coords, EltTy.bits .f32 = 32 ∨ (Rect.block (s := S64x32768) S64x1024.size (cc0_transform_2 i) (hinb0_2 i)).WholeWords (EltTy.packing .f32)

variable [Facts₀]

def dot_S64x4096_S1024x4096_S64x1024_1_1_0_0_n_n : DotDims S64x4096 S1024x4096 S64x1024 where
  lhsContracting := [1]
  rhsContracting := [1]
  lhsNonContracting := [0]
  rhsNonContracting := [0]
  lhsBatch := []
  rhsBatch := []
  wf := dot_S64x4096_S1024x4096_S64x1024_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S64x4096 : Shape := ⟨2, ![64, 4096]⟩
abbrev S4096x64 : Shape := ⟨2, ![4096, 64]⟩
abbrev S32768x64 : Shape := ⟨2, ![32768, 64]⟩

abbrev nBuf : Space → Nat
  | .hbm => 4
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S4096x64, .f32⟩
  | .hbm, ⟨3, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S64x4096_S4096x64_1_0 : S64x4096.Transposes [1, 0] S4096x64
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.LibDotNT.lean ====
/-
  A matrix product of two row-major operands contracted along their LAST axes, read at an entry.

  For dimension numbers that contract axis 1 of an `M × K` left operand with axis 1 of an `N × K` right operand
  (`l · rᵀ`, what `dot_general(a, b, (((1,), (1,)), ((), ())))` prints) and have no batch axes, the contraction index is one
  coordinate `k : Fin K`, the left operand is read at `(a, k)` and the right operand at `(b, k)`: the sum over the
  contraction index is `∑ k : Fin K`. At the ideal instance this reads a kernel's matrix product into a zero
  accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDotNT

open Idealize.ShloMosaic Idealize.ShloMosaic.ValueIdx

/-- The sum over the contraction index of an `M × K` by `N × K` product contracted along both last axes, as a sum over
    `Fin K`. -/
theorem nt_sum {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    {α : Type} [AddCommMonoid α] (f : (⟨2, ![M, K]⟩ : Shape).Idx → (⟨2, ![N, K]⟩ : Shape).Idx → α) (a : Fin M) (b : Fin N) :
    ∑ k : d.contr.Idx, f (d.lhsIdx (ix2 a b) k) (d.rhsIdx (ix2 a b) k) = ∑ k : Fin K, f (ix2 a k) (ix2 b k) := by
  obtain ⟨lc, rc, ln, rn, lb, rb, wf⟩ := d
  dsimp only at h1 h2 h3 h4 h5 h6
  subst h1 h2 h3 h4 h5 h6
  have hr : (DotDims.mk [1] [1] [0] [0] [] [] wf : DotDims ⟨2, ![M, K]⟩ ⟨2, ![N, K]⟩ ⟨2, ![M, N]⟩).contr.rank = 1 := rfl
  have hs : (DotDims.mk [1] [1] [0] [0] [] [] wf : DotDims ⟨2, ![M, K]⟩ ⟨2, ![N, K]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product `l · rᵀ` into the zero accumulator, at the ideal instance, at entry `(a, b)`. -/
theorem matmul_zero_apply {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) {φ₁ φ₂ : FTy}
    (prec : Option ContractPrecision) (l : FVec Ideal ⟨2, ![M, K]⟩ φ₁) (r : FVec Ideal ⟨2, ![N, K]⟩ φ₂) (a : Fin M) (b : Fin N) :
    matmul d prec l r (constant ⟨2, ![M, N]⟩ .f32 0x00000000#32) (ix2 a b) = ∑ k : Fin K, l (ix2 a k) * r (ix2 b k) := by
  show FloatOps.matmul d prec l r (constant ⟨2, ![M, N]⟩ .f32 0x00000000#32) (ix2 a b) = _
  rw [Ideal.matmul_constant_zero_apply]
  exact nt_sum d h1 h2 h3 h4 h5 h6 (fun i j => l i * r j) a b

/-- A host program's `dot_general` of the same dimension numbers, at the ideal instance, at entry `(a, b)`. -/
theorem dotGeneral_apply {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) {φ₁ φ₂ : FTy}
    (prec : Option ContractPrecision) (l : FVec Ideal ⟨2, ![M, K]⟩ φ₁) (r : FVec Ideal ⟨2, ![N, K]⟩ φ₂) (a : Fin M) (b : Fin N) :
    Host.dotGeneral d prec l r (ix2 a b) = ∑ k : Fin K, l (ix2 a k) * r (ix2 b k) := by
  show FloatOps.dotGeneral d prec .single l r (ix2 a b) = _
  rw [Ideal.dotGeneral_apply]
  exact nt_sum d h1 h2 h3 h4 h5 h6 (fun i j => l i * r j) a b

end Cert.LibDotNT

end
-- ==== Proof.GateSpec.lean ====
/-
  The router gate's logits as plain mathematics on the extended reals.

  For activations `x` (one row of 4096 features per token, 32768 tokens) and a gate weight `w` (one row of 4096 features per
  expert, 64 experts), the logit of token `n` for expert `e` is the inner product of row `n` of `x` with row `e` of `w`.
  The same numbers are laid out two ways: expert-major (`logitsT`, entry `(e, n)`, each term written weight × activation) and
  token-major (`logits`, entry `(n, e)`, each term written activation × weight). Swapping the two axes of the first
  gives the second: entry by entry the two sums run over the same 4096 features, and each term differs only in the order of
  its two factors, which multiplication on the extended reals does not see (it is commutative also at the infinities). No
  input needs to be finite for this.
-/
import Idealize.ShloMosaic.PureOps.Ideal
import Idealize.ShloMosaic.Lib.ValueIdx
import Idealize.ShloMosaic.Lib.Pipeline.Value

noncomputable section

open scoped BigOperators

namespace Cert.GateSpec

open Idealize.ShloMosaic Idealize.ShloMosaic.ValueIdx

/-- The activations: 32768 tokens by 4096 features. -/
abbrev Tokens : Shape := ⟨2, ![32768, 4096]⟩
/-- The gate weight: 64 experts by 4096 features. -/
abbrev Experts : Shape := ⟨2, ![64, 4096]⟩
/-- Logits with the expert on the leading axis. -/
abbrev ExpertMajor : Shape := ⟨2, ![64, 32768]⟩
/-- Logits with the token on the leading axis. -/
abbrev TokenMajor : Shape := ⟨2, ![32768, 64]⟩

/-- Expert-major logits: entry `(e, n)` is `∑ k, w[e, k] · x[n, k]`. -/
def logitsT (x : Tokens.Idx → EReal) (w : Experts.Idx → EReal) : ExpertMajor.Idx → EReal :=
  fun i => ∑ k : Fin 4096, w (ix2 (i 0) k) * x (ix2 (i 1) k)

/-- Token-major logits: entry `(n, e)` is `∑ k, x[n, k] · w[e, k]`. -/
def logits (x : Tokens.Idx → EReal) (w : Experts.Idx → EReal) : TokenMajor.Idx → EReal :=
  fun i => ∑ k : Fin 4096, x (ix2 (i 0) k) * w (ix2 (i 1) k)

/-- The expert-major logits with their two axes swapped are the token-major logits: entry `(n, e)` of the swap is entry
    `(e, n)` of the original, and the two sums agree term by term by commutativity of the product. -/
theorem transpose_logitsT (x : Tokens.Idx → EReal) (w : Experts.Idx → EReal) (h : ExpertMajor.Transposes [1, 0] TokenMajor) :
    transpose TokenMajor [1, 0] (logitsT x w) h = logits x w := by
  funext i
  rw [transpose_apply [1, 0] (logitsT x w) h i (ix2 (i 1) (i 0)) (fun b => match b with
    | ⟨0, _⟩ => rfl
    | ⟨1, _⟩ => rfl)]
  unfold logitsT logits
  exact Finset.sum_congr rfl fun k _ => mul_comm _ _

end Cert.GateSpec

end
-- ==== Proof.GateKernel.lean ====
/-
  What the idealized kernel leaves in its result, read off the generated frame run.

  The pallas_call walks the 32768 tokens in 32 blocks of 1024. At block `t` the body multiplies the whole gate weight
  (64 × 4096, the same block at every point) by the transpose of the activations' rows `1024·t … 1024·t + 1023`
  (1024 × 4096), contracting the 4096 features into a zero accumulator, and stores the 64 × 1024 product whole; the pipeline
  writes it back as columns `1024·t … 1024·t + 1023` of the expert-major array. So entry `(e, r)` of block `t` is
  `∑ k, w[e, k] · x[1024·t + r, k]`, which is entry `(e, 1024·t + r)` of `GateSpec.logitsT`; the 32 column blocks tile
  the array, so after the region it IS `logitsT`. The one host operation after the region swaps the two axes, which gives
  `GateSpec.logits` (`GateSpec.transpose_logitsT`).
-/
import proofs.«167532_g15161234555173_cont_week2b_154_24_alg».proof.Proof.Gen.KernelIdeal.Frame
import proofs.«167532_g15161234555173_cont_week2b_154_24_alg».proof.Proof.LibDotNT
import proofs.«167532_g15161234555173_cont_week2b_154_24_alg».proof.Proof.GateSpec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open scoped BigOperators

namespace Cert.KernelIdeal.GateValue

open Cert.KernelIdeal Cert.KernelIdeal.Gen Idealize.ShloMosaic Idealize.ShloMosaic.TcCoe Idealize.ShloMosaic.ValueIdx Idealize.SL.Sem
open Idealize.ShloMosaic.Pipeline (Dat)
open Cert.GateSpec

variable (m : (ℓ : Loc nD τ sig) → Buf (Elt Ideal) ℓ) (ρ : Dev nD → PrngReg)

/-! ## One block -/

theorem hz : (![0, 0] : Fin 2 → Nat) = fun _ => 0 := funext fun a => by fin_cases a <;> rfl

/-- The body's product at entry `(e, r)` of its block: the weight block's row `e` against the activation block's row `r`,
    summed over the 4096 features (the accumulator it adds to is zero). -/
theorem product_apply (wb : FVec Ideal S64x4096 .f32) (xb : FVec Ideal S1024x4096 .f32) (e : Fin 64) (r : Fin 1024) :
    k0_pay1 (F := Ideal) wb xb (ix2 e r) = ∑ k : Fin 4096, wb (ix2 e k) * xb (ix2 r k) := by
  unfold k0_pay1
  exact Cert.LibDotNT.matmul_zero_apply dot_S64x4096_S1024x4096_S64x1024_1_1_0_0_n_n rfl rfl rfl rfl rfl rfl none wb xb e r

/-- Where the three windows' blocks sit at point `t`: the activations' block is row-block `t`, the weight's block is the
    whole array, the result's block is column-block `t`. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- WHAT POINT `t` WRITES BACK is column-block `t` of the expert-major logits of the argument arrays. -/
theorem flushed_eq (c : Dev nD) (t : Fin cfg0.N) :
    (dats m 0 c).flushed 2 t = ((cfg0.win 2).blk t).view.read (Elt Ideal) (logitsT (V m c main_arg0) (V m c main_arg1)) := by
  show (cfg0.win 2).cut (grid0.coords t) ((dats m 0 c).after 2 t) = _
  rw [after0_2]
  unfold out0_2
  rw [View.canon_unit_zero hz]
  simp only [View.ld_unit_zero (S := S64x4096) hz, View.ld_unit_zero (S := S1024x4096) hz]
  obtain ⟨e0, e1, e2, e3, e4, e5⟩ := block_indices t
  funext j
  obtain ⟨e, r, rfl⟩ : ∃ (e : Fin 64) (r : Fin 1024), j = ix2 e r := ⟨j 0, j 1, eq_ix2 j⟩
  show k0_pay1 (F := Ideal) (iblk m c 1 t) (iblk m c 0 t) (ix2 e r)
    = logitsT (V m c main_arg0) (V m c main_arg1) (((cfg0.win 2).blk t).view.emb (ix2 e r))
  refine (product_apply (iblk m c 1 t) (iblk m c 0 t) e r).trans ?_
  unfold logitsT
  refine Finset.sum_congr rfl fun k _ => ?_
  have hw : iblk m c 1 t (ix2 e k) = V m c main_arg1 (ix2 ((((cfg0.win 2).blk t).view.emb (ix2 e r)) 0) k) := by
    show V m c main_arg1 (((cfg0.win 1).blk t).view.emb (ix2 e k)) = _
    refine congrArg (V m c main_arg1) (funext fun a => Fin.ext ?_)
    match a with
    | ⟨0, _⟩ => show win0_1.index t (0 : Fin 2) * 64 + 1 * e.val = win0_2.index t (0 : Fin 2) * 64 + 1 * e.val; omega
    | ⟨1, _⟩ => show win0_1.index t (1 : Fin 2) * 4096 + 1 * k.val = k.val; omega
  have hx : iblk m c 0 t (ix2 r k) = V m c main_arg0 (ix2 ((((cfg0.win 2).blk t).view.emb (ix2 e r)) 1) k) := by
    show V m c main_arg0 (((cfg0.win 0).blk t).view.emb (ix2 r k)) = _
    refine congrArg (V m c main_arg0) (funext fun a => Fin.ext ?_)
    match a with
    | ⟨0, _⟩ => show win0_0.index t (0 : Fin 2) * 1024 + 1 * r.val = win0_2.index t (1 : Fin 2) * 1024 + 1 * r.val; omega
    | ⟨1, _⟩ => show win0_0.index t (1 : Fin 2) * 4096 + 1 * k.val = k.val; omega
  rw [hw, hx]

/-! ## The 32 blocks tile the array -/

/-- An index of the array is in point `t`'s block iff each coordinate is in the block's range on its axis. -/
theorem mem_blk (t : Fin cfg0.N) (i : S64x32768.Idx) :
    i ∈ ((cfg0.win 2).blk t).view.set ↔ ∀ a : Fin 2, win0_2.index t a * S64x1024.size a ≤ (i a).val ∧ (i a).val < win0_2.index t a * S64x1024.size a + S64x1024.size a := by
  show i ∈ ((View.whole main_v0).slice (win0_2.rect t)).set ↔ _
  rw [View.set_slice_whole, Rect.mem_set_unit]
  exact Iff.rfl

/-- Every entry `(e, n)` lies in the block of point `n / 1024`, which writes back. -/
theorem cover (i : S64x32768.Idx) : ∃ t : Fin cfg0.N, (cfg0.win 2).flush t = true ∧ i ∈ ((cfg0.win 2).blk t).view.set := by
  have hi0 : (i 0).val < 64 := (i 0).isLt
  have hi1 : (i 1).val < 32768 := (i 1).isLt
  have hlt : (i 1).val / 1024 < cfg0.N := lt_of_lt_of_eq (by omega : (i 1).val / 1024 < 32) N_0.symm
  obtain ⟨-, -, -, -, e4, e5⟩ := block_indices ⟨(i 1).val / 1024, hlt⟩
  have e5' : win0_2.index ⟨(i 1).val / 1024, hlt⟩ (1 : Fin 2) = (i 1).val / 1024 := e5
  refine ⟨⟨(i 1).val / 1024, hlt⟩, flush0_2 _, ?_⟩
  rw [mem_blk]
  intro a
  match a with
  | ⟨0, _⟩ => show win0_2.index ⟨(i 1).val / 1024, hlt⟩ (0 : Fin 2) * 64 ≤ (i 0).val ∧ (i 0).val < win0_2.index ⟨(i 1).val / 1024, hlt⟩ (0 : Fin 2) * 64 + 64; omega
  | ⟨1, _⟩ => show win0_2.index ⟨(i 1).val / 1024, hlt⟩ (1 : Fin 2) * 1024 ≤ (i 1).val ∧ (i 1).val < win0_2.index ⟨(i 1).val / 1024, hlt⟩ (1 : Fin 2) * 1024 + 1024; omega

/-- THE ARRAY after the region: the expert-major logits of the argument arrays. -/
theorem final (c : Dev nD) : (dats m 0 c).arrAt 2 cfg0.N = logitsT (V m c main_arg0) (V m c main_arg1) :=
  (dats m 0 c).arrAt_eq_of_cover 2 (logitsT (V m c main_arg0) (V m c main_arg1)) (fun t _ => flushed_eq m c t) cover

/-! ## The host operation after the region -/

/-- The result buffer after the axis swap that follows the region: the token-major logits of the argument arrays. -/
theorem tail_eq (c : Dev nD) :
    Pipeline.afterTail₀ cfgs (dats m) 0 (V0 m) [hostOps1] c main_v1
      = logits (m ((c : Thread nD τ).loc main_arg0)) (m ((c : Thread nD τ).loc main_arg1)) := by
  unfold Pipeline.afterTail₀
  show StableHlo.after hostOps1 _ (Proc.devRef .tc main_v1) = _
  after_results
  have harr : Pipeline.withArrays (cfgs 0).spec c (V0 m c) (fun w => (dats m 0 c).arrAt w (cfgs 0).N) (Proc.devRef .tc main_v0)
      = logitsT (V m c main_arg0) (V m c main_arg1) :=
    (Pipeline.withArrays_arr spec0 launch0.win.arr_inj c _ _ 2).trans (final m c)
  refine (congrArg (fun z => transpose S32768x64 [1, 0] z transposes_S64x32768_S32768x64_1_0) harr).trans ?_
  rw [V_main_arg0, V_main_arg1]
  exact transpose_logitsT _ _ _

/-! ## The run, read -/

/-- The frame run re-posted: the result buffer at the token-major logits of the arguments, the arguments unchanged. The
    result buffer is no array of the pipeline, so the frame run's post reads it as the host tail leaves it. -/
theorem run : θ_run defs (onTc (τ := τ) (main (F := Ideal))) ⟨m, fun _ => 0, ρ⟩ fun r => ∀ c : Dev nD,
      r.2.mem ((c : Thread nD τ).loc main_v1) = logits (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.GateValue

end
-- ==== Proof.GateReference.lean ====
/-
  What the idealized reference computes, read off its generated run.

  The reference swaps the gate weight's axes (4096 × 64) and multiplies the activations (32768 × 4096) by it on the host,
  contracting the 4096 features. At entry `(n, e)` the product is `∑ k, x[n, k] · wᵀ[k, e]`, and `wᵀ[k, e]` is `w[e, k]`:
  the token-major logits `GateSpec.logits`, term for term.
-/
import proofs.«167532_g15161234555173_cont_week2b_154_24_alg».proof.Proof.Gen.ReferenceIdeal.Run
import proofs.«167532_g15161234555173_cont_week2b_154_24_alg».proof.Proof.Gen.ReferenceIdeal.Read
import proofs.«167532_g15161234555173_cont_week2b_154_24_alg».proof.Proof.GateSpec
import Idealize.ShloMosaic.Lib.ValueIdx

noncomputable section

open scoped BigOperators

namespace Cert.ReferenceIdeal.GateValue

open Cert.ReferenceIdeal Cert.ReferenceIdeal.Gen Cert.ReferenceIdeal.Read
open Idealize.ShloMosaic Idealize.ShloMosaic.TcCoe Idealize.ShloMosaic.ValueIdx Idealize.SL.Sem
open Cert.GateSpec

/-- The reference's product stage is the token-major logits: at entry `(n, e)` the left operand is read at `(n, k)` and
    the swapped weight at `(k, e)`, that is the weight at `(e, k)`. -/
theorem product_eq (x : (⟨S32768x4096, .f32⟩ : BufTy).Contents (Elt Ideal)) (w : (⟨S64x4096, .f32⟩ : BufTy).Contents (Elt Ideal)) :
    val_main_v1 (F := Ideal) x w = logits x w := by
  funext i
  rw [val_main_v1_apply]
  unfold logits
  refine Finset.sum_congr rfl fun k _ => ?_
  rw [val_main_v0_apply]
  have el : lidx_main_v1 i k = ix2 (i 0) k := funext fun a => Fin.ext (by
    match a with
    | ⟨0, _⟩ => rfl
    | ⟨1, _⟩ => rfl)
  have er : idx_main_v0 (ridx_main_v1 i k) = ix2 (i 1) k := funext fun a => Fin.ext (by
    match a with
    | ⟨0, _⟩ => rfl
    | ⟨1, _⟩ => rfl)
  rw [el, er]
  rfl

/-- The reference's run re-posted: the result buffer at the token-major logits of the arguments, the arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = logits (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((val_main_v1_eq _ _).trans (product_eq _ _)), (h c).2⟩)
    (Cert.ReferenceIdeal.Value.run (F := Ideal) m ρ)

end Cert.ReferenceIdeal.GateValue

end
-- ==== Proof.lean ====
/-
  The certificate of the router gate GEMM: a Pallas kernel that computes the logits expert-major, one 64 × 1024 column
  block per grid point, and swaps the axes on the host, against the plain `hidden_states @ weight.T`.

  Over the extended reals both programs end with the same array: entry `(n, e)` is the sum over the 4096 features of
  `x[n, k]` times `w[e, k]`. The kernel's side is read off its frame run block by block (Proof/GateKernel.lean), the
  reference's off its run (Proof/GateReference.lean); the two meet in `GateSpec.logits` (Proof/GateSpec.lean), where the only
  law used is commutativity of the product, so the precondition is never opened. The idealization rewrote nothing, so
  `preserves` has no conjunct. The three frames are the generated frame runs (the reference's is its run with the result
  dropped).
-/
import proofs.«167532_g15161234555173_cont_week2b_154_24_alg».proof.Defs
import proofs.«167532_g15161234555173_cont_week2b_154_24_alg».proof.Proof.Gen.Kernel
import proofs.«167532_g15161234555173_cont_week2b_154_24_alg».proof.Proof.Gen.Kernel.Skeleton
import proofs.«167532_g15161234555173_cont_week2b_154_24_alg».proof.Proof.Gen.Kernel.Launch
import proofs.«167532_g15161234555173_cont_week2b_154_24_alg».proof.Proof.Gen.Kernel.Points
import proofs.«167532_g15161234555173_cont_week2b_154_24_alg».proof.Proof.Gen.Kernel.Frame
import proofs.«167532_g15161234555173_cont_week2b_154_24_alg».proof.Proof.Gen.KernelIdeal
import proofs.«167532_g15161234555173_cont_week2b_154_24_alg».proof.Proof.Gen.KernelIdeal.Skeleton
import proofs.«167532_g15161234555173_cont_week2b_154_24_alg».proof.Proof.Gen.KernelIdeal.Launch
import proofs.«167532_g15161234555173_cont_week2b_154_24_alg».proof.Proof.Gen.KernelIdeal.Points
import proofs.«167532_g15161234555173_cont_week2b_154_24_alg».proof.Proof.Gen.KernelIdeal.Frame
import proofs.«167532_g15161234555173_cont_week2b_154_24_alg».proof.Proof.Gen.ReferenceIdeal
import proofs.«167532_g15161234555173_cont_week2b_154_24_alg».proof.Proof.Gen.Pre_finite_inputs
import proofs.«167532_g15161234555173_cont_week2b_154_24_alg».proof.Proof.Gen.ReferenceIdeal.Run
import proofs.«167532_g15161234555173_cont_week2b_154_24_alg».proof.Proof.Gen.ReferenceIdeal.Read
import proofs.«167532_g15161234555173_cont_week2b_154_24_alg».proof.Proof.GateKernel
import proofs.«167532_g15161234555173_cont_week2b_154_24_alg».proof.Proof.GateReference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the token-major logits of their arguments, and the arguments agree. -/
theorem algebraic : Cert.algebraic_KernelIdeal_ReferenceIdeal := by
  intro m ρ m' ρ' _ hagree
  refine ⟨_, Cert.KernelIdeal.GateValue.run m ρ, ?_⟩
  refine (θ_run Cert.ReferenceIdeal.defs _ _).mono (fun _ h c => ⟨(h c).1.trans ?_, (h c).2⟩)
    (Cert.ReferenceIdeal.GateValue.run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
